-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288 : Shape := ⟨1, ![524288]⟩
abbrev S524288x3 : Shape := ⟨2, ![524288, 3]⟩
abbrev S100x256 : Shape := ⟨2, ![100, 256]⟩
abbrev S3x256 : Shape := ⟨2, ![3, 256]⟩
abbrev S256 : Shape := ⟨1, ![256]⟩
abbrev S256x256 : Shape := ⟨2, ![256, 256]⟩
abbrev S_ : Shape := ⟨0, ![]⟩

class Facts : Prop where
  bcast_S_S524288x3 : S_.BroadcastsInDim S524288x3 (![] : Fin 0 → Fin S524288x3.rank)
  reducesTo_S524288x3_S_d0_1 : S524288x3.ReducesTo [0, 1] S_
  h_S_ : 0 < S_.numel
  bcast_S_S100x256 : S_.BroadcastsInDim S100x256 (![] : Fin 0 → Fin S100x256.rank)
  reducesTo_S100x256_S_d0_1 : S100x256.ReducesTo [0, 1] S_
  bcast_S_S3x256 : S_.BroadcastsInDim S3x256 (![] : Fin 0 → Fin S3x256.rank)
  reducesTo_S3x256_S_d0_1 : S3x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S524288 : S_.BroadcastsInDim S524288 (![] : Fin 0 → Fin S524288.rank)
  reducesTo_S524288_S_d0 : S524288.ReducesTo [0] S_

variable [Facts]

def fn_part2 {F : FTy → Type} [FloatOps F] (main_arg0 : IVec S524288 32) (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_c_14 : IVec S_ 32 := constantI S_ 32 0#32
  let main_v39 : IVec S524288 32 := broadcastInDim S524288 ![] bcast_S_S524288 main_c_14
  let main_v40 : IVec S524288 1 := cmpi .sge main_arg0 main_v39
  let main_c_15 : IVec S_ 1 := constantI S_ 1 1#1
  let main_v41 : IVec S_ 1 := (fun x v => Host.reduce IntOp.andi x v reducesTo_S524288_S_d0 h_S_) main_v40 main_c_15
  let main_v42 : IVec S_ 1 := andi main_v38 main_v41
  main_v42

def fn_part1 {F : FTy → Type} [FloatOps F] (main_arg0 : IVec S524288 32) (main_arg5 : FVec F S256x256 .f32) (main_arg6 : FVec F S256 .f32) (main_arg7 : FVec F S256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg0 main_arg8 main_v33

def fn {F : FTy → Type} [FloatOps F] (main_arg0 : IVec S524288 32) (main_arg1 : FVec F S524288x3 .f32) (main_arg2 : FVec F S100x256 .f32) (main_arg3 : FVec F S3x256 .f32) (main_arg4 : FVec F S256 .f32) (main_arg5 : FVec F S256x256 .f32) (main_arg6 : FVec F S256 .f32) (main_arg7 : FVec F S256 .f32) (main_arg8 : FVec F S256 .f32) : IVec S_ 1 :=
  let main_v0 : FVec F S524288x3 .f32 := Host.absf main_arg1
  let main_cst : FVec F S_ .f32 := constant S_ .f32 0x7F800000#32
  let main_v1 : FVec F S524288x3 .f32 := broadcastInDim S524288x3 ![] bcast_S_S524288x3 main_cst
  let main_v2 : IVec S524288x3 1 := cmpf .olt main_v0 main_v1
  let main_c : IVec S_ 1 := constantI S_ 1 1#1
  let main_v3 : IVec S_ 1 := (fun x v => Host.reduce IntOp.andi x v reducesTo_S524288x3_S_d0_1 h_S_) main_v2 main_c
  let main_v4 : FVec F S100x256 .f32 := Host.absf main_arg2
  let main_cst_0 : FVec F S_ .f32 := constant S_ .f32 0x7F800000#32
  let main_v5 : FVec F S100x256 .f32 := broadcastInDim S100x256 ![] bcast_S_S100x256 main_cst_0
  let main_v6 : IVec S100x256 1 := cmpf .olt main_v4 main_v5
  let main_c_1 : IVec S_ 1 := constantI S_ 1 1#1
  let main_v7 : IVec S_ 1 := (fun x v => Host.reduce IntOp.andi x v reducesTo_S100x256_S_d0_1 h_S_) main_v6 main_c_1
  let main_v8 : IVec S_ 1 := andi main_v3 main_v7
  let main_v9 : FVec F S3x256 .f32 := Host.absf main_arg3
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg5 main_arg6 main_arg7 main_arg8 main_v13 main_v16
-- ==== Kernel.lean ====
abbrev S524288 : Shape := ⟨1, ![524288]⟩
abbrev S524288x3 : Shape := ⟨2, ![524288, 3]⟩
abbrev S100x256 : Shape := ⟨2, ![100, 256]⟩
abbrev S3x256 : Shape := ⟨2, ![3, 256]⟩
abbrev S256 : Shape := ⟨1, ![256]⟩
abbrev S256x256 : Shape := ⟨2, ![256, 256]⟩
abbrev S524288x256 : Shape := ⟨2, ![524288, 256]⟩
abbrev S4096 : Shape := ⟨1, ![4096]⟩
abbrev S4096x3 : Shape := ⟨2, ![4096, 3]⟩
abbrev S4096x256 : Shape := ⟨2, ![4096, 256]⟩
abbrev S1x4096 : Shape := ⟨2, ![1, 4096]⟩
abbrev S100x4096 : Shape := ⟨2, ![100, 4096]⟩
abbrev S1x256 : Shape := ⟨2, ![1, 256]⟩
abbrev S4096x1 : Shape := ⟨2, ![4096, 1]⟩

abbrev nBuf : Space → Nat
  | .hbm => 10
  | .vmem => 13
  | .smem => 0
  | _ => 0

abbrev bufTy : (tb : Table) → Fin (tcTables nBuf tb) → BufTy
  | .hbm, ⟨0, _⟩ => ⟨S524288, .i32⟩
  | .hbm, ⟨1, _⟩ => ⟨S524288x3, .f32⟩
  | .hbm, ⟨2, _⟩ => ⟨S100x256, .f32⟩
  | .hbm, ⟨3, _⟩ => ⟨S3x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S524288x256, .f32⟩
  | .local _ .vmem, ⟨0, _⟩ => ⟨S4096, .i32⟩
  | .local _ .vmem, ⟨1, _⟩ => ⟨S4096, .i32⟩
  | .local _ .vmem, ⟨2, _⟩ => ⟨S4096x3, .f32⟩
  | .local _ .vmem, ⟨3, _⟩ => ⟨S4096x3, .f32⟩
  | .local _ .vmem, ⟨4, _⟩ => ⟨S100x256, .f32⟩
  | .local _ .vmem, ⟨5, _⟩ => ⟨S3x256, .f32⟩
  | .local _ .vmem, ⟨6, _⟩ => ⟨S256, .f32⟩
  | .local _ .vmem, ⟨7, _⟩ => ⟨S256x256, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S4096x256, .f32⟩
  | .local _ .vmem, ⟨12, _⟩ => ⟨S4096x256, .f32⟩
  | _, _ => ⟨S524288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S4096_S4096_0 : ∀ a, (![0] : Fin 1 → Nat) a + S4096.size a ≤ S4096.size a
  h_S4096 : 0 < S4096.numel
  shapeCasts_S4096_S1x4096 : S4096.ShapeCasts S1x4096
  iota_S100x4096_d0_w32 : S100x4096.Iotas .tc 32 [0]
  broadcasts_S1x4096_S100x4096 : S1x4096.Broadcasts S100x4096
  natLt_1_32 : 1 < 32
  inb_S100x256_S100x256_0_0 : ∀ a, (![0, 0] : Fin 2 → Nat) a + S100x256.size a ≤ S100x256.size a
  h_S100x256 : 0 < S100x256.numel
  inb_S4096x3_S4096x3_0_0 : ∀ a, (![0, 0] : Fin 2 → Nat) a + S4096x3.size a ≤ S4096x3.size a
  h_S4096x3 : 0 < S4096x3.numel
  bitsLt_bf16_f32 : FTy.bits .bf16 < FTy.bits .f32
  inb_S3x256_S3x256_0_0 : ∀ a, (![0, 0] : Fin 2 → Nat) a + S3x256.size a ≤ S3x256.size a
  h_S3x256 : 0 < S3x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  reduces_S4096x256_S4096 : S4096x256.Reduces [1] S4096
  shapeCasts_S4096_S4096x1 : S4096.ShapeCasts S4096x1
  broadcasts_S4096x1_S4096x256 : S4096x1.Broadcasts S4096x256
  inb_S4096x256_S4096x256_0_0 : ∀ a, (![0, 0] : Fin 2 → Nat) a + S4096x256.size a ≤ S4096x256.size a
  h_S4096x256 : 0 < S4096x256.numel
  dot_S100x4096_S100x256_S4096x256_0_0_1_1_n_n_wf : DotDims.WF S100x4096 S100x256 S4096x256 [0] [0] [1] [1] [] []
  dot_S4096x3_S3x256_S4096x256_1_0_0_1_n_n_wf : DotDims.WF S4096x3 S3x256 S4096x256 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S524288.size a
  hwx0_0 : ∀ i : grid0.Coords, EltTy.bits .i32 = 32 ∨ (Rect.block (s := S524288) S4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S524288x3.size a
  hwx0_1 : ∀ i : grid0.Coords, EltTy.bits .f32 = 32 ∨ (Rect.block (s := S524288x3) S4096x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x256.size a ≤ S100x256.size a
  hwx0_2 : ∀ i : grid0.Coords, EltTy.bits .f32 = 32 ∨ (Rect.block (s := S100x256) S100x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x256.size a ≤ S3x256.size a
  hwx0_3 : ∀ i : grid0.Coords, EltTy.bits .f32 = 32 ∨ (Rect.block (s := S3x256) S3x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x256.size a ≤ S524288x256.size a
  hwx0_9 : ∀ i : grid0.Coords, EltTy.bits .f32 = 32 ∨ (Rect.block (s := S524288x256) S4096x256.size (cc0_transform_9 i) (hinb0_9 i)).WholeWords (EltTy.packing .f32)

variable [Facts₀]

def dot_S100x4096_S100x256_S4096x256_0_0_1_1_n_n : DotDims S100x4096 S100x256 S4096x256 where
  lhsContracting := [0]
  rhsContracting := [0]
  lhsNonContracting := [1]
  rhsNonContracting := [1]
  lhsBatch := []
  rhsBatch := []
  wf := dot_S100x4096_S100x256_S4096x256_0_0_1_1_n_n_wf
def dot_S4096x3_S3x256_S4096x256_1_0_0_1_n_n : DotDims S4096x3 S3x256 S4096x256 where
  lhsContracting := [1]
  rhsContracting := [0]
  lhsNonContracting := [0]
  rhsNonContracting := [1]
  lhsBatch := []
  rhsBatch := []
  wf := dot_S4096x3_S3x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S100x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S4096x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S524288 : Shape := ⟨1, ![524288]⟩
abbrev S524288x3 : Shape := ⟨2, ![524288, 3]⟩
abbrev S100x256 : Shape := ⟨2, ![100, 256]⟩
abbrev S3x256 : Shape := ⟨2, ![3, 256]⟩
abbrev S256 : Shape := ⟨1, ![256]⟩
abbrev S256x256 : Shape := ⟨2, ![256, 256]⟩
abbrev S_ : Shape := ⟨0, ![]⟩
abbrev S524288x1 : Shape := ⟨2, ![524288, 1]⟩
abbrev S524288x256 : Shape := ⟨2, ![524288, 256]⟩
abbrev S1x256 : Shape := ⟨2, ![1, 256]⟩

abbrev nBuf : Space → Nat
  | .hbm => 65
  | .vmem => 0
  | .smem => 0
  | _ => 0

abbrev bufTy : (tb : Table) → Fin (tcTables nBuf tb) → BufTy
  | .hbm, ⟨0, _⟩ => ⟨S524288, .i32⟩
  | .hbm, ⟨1, _⟩ => ⟨S524288x3, .f32⟩
  | .hbm, ⟨2, _⟩ => ⟨S100x256, .f32⟩
  | .hbm, ⟨3, _⟩ => ⟨S3x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S_, .i32⟩
  | .hbm, ⟨10, _⟩ => ⟨S524288, .i32⟩
  | .hbm, ⟨11, _⟩ => ⟨S524288, .i1⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S524288, .i32⟩
  | .hbm, ⟨16, _⟩ => ⟨S524288x1, .i32⟩
  | .hbm, ⟨17, _⟩ => ⟨S524288x256, .f32⟩
  | .hbm, ⟨18, _⟩ => ⟨S524288x256, .f32⟩
  | .hbm, ⟨19, _⟩ => ⟨S1x256, .f32⟩
  | .hbm, ⟨20, _⟩ => ⟨S524288x256, .f32⟩
  | .hbm, ⟨21, _⟩ => ⟨S524288x256, .f32⟩
  | .hbm, ⟨22, _⟩ => ⟨S524288x256, .f32⟩
  | .hbm, ⟨23, _⟩ => ⟨S524288x256, .f32⟩
  | .hbm, ⟨24, _⟩ => ⟨S_, .f32⟩
  | .hbm, ⟨25, _⟩ => ⟨S524288x256, .f32⟩
  | .hbm, ⟨26, _⟩ => ⟨S524288x256, .f32⟩
  | .hbm, ⟨27, _⟩ => ⟨S_, .f32⟩
  | .hbm, ⟨28, _⟩ => ⟨S524288x256, .f32⟩
  | .hbm, ⟨29, _⟩ => ⟨S524288x256, .f32⟩
  | .hbm, ⟨30, _⟩ => ⟨S524288x256, .f32⟩
  | .hbm, ⟨31, _⟩ => ⟨S524288x256, .f32⟩
  | .hbm, ⟨32, _⟩ => ⟨S1x256, .f32⟩
  | .hbm, ⟨33, _⟩ => ⟨S524288x256, .f32⟩
  | .hbm, ⟨34, _⟩ => ⟨S524288x256, .f32⟩
  | .hbm, ⟨35, _⟩ => ⟨S524288x256, .f32⟩
  | .hbm, ⟨36, _⟩ => ⟨S_, .f32⟩
  | .hbm, ⟨37, _⟩ => ⟨S524288, .f32⟩
  | .hbm, ⟨38, _⟩ => ⟨S524288x1, .f32⟩
  | .hbm, ⟨39, _⟩ => ⟨S_, .f32⟩
  | .hbm, ⟨40, _⟩ => ⟨S524288x1, .f32⟩
  | .hbm, ⟨41, _⟩ => ⟨S524288x1, .f32⟩
  | .hbm, ⟨42, _⟩ => ⟨S524288x256, .f32⟩
  | .hbm, ⟨43, _⟩ => ⟨S524288x256, .f32⟩
  | .hbm, ⟨44, _⟩ => ⟨S524288x256, .f32⟩
  | .hbm, ⟨45, _⟩ => ⟨S_, .f32⟩
  | .hbm, ⟨46, _⟩ => ⟨S524288, .f32⟩
  | .hbm, ⟨47, _⟩ => ⟨S524288x1, .f32⟩
  | .hbm, ⟨48, _⟩ => ⟨S_, .f32⟩
  | .hbm, ⟨49, _⟩ => ⟨S524288x1, .f32⟩
  | .hbm, ⟨50, _⟩ => ⟨S524288x1, .f32⟩
  | .hbm, ⟨51, _⟩ => ⟨S524288x256, .f32⟩
  | .hbm, ⟨52, _⟩ => ⟨S524288x256, .f32⟩
  | .hbm, ⟨53, _⟩ => ⟨S_, .f32⟩
  | .hbm, ⟨54, _⟩ => ⟨S524288x1, .f32⟩
  | .hbm, ⟨55, _⟩ => ⟨S524288x1, .f32⟩
  | .hbm, ⟨56, _⟩ => ⟨S524288x1, .f32⟩
  | .hbm, ⟨57, _⟩ => ⟨S524288x256, .f32⟩
  | .hbm, ⟨58, _⟩ => ⟨S524288x256, .f32⟩
  | .hbm, ⟨59, _⟩ => ⟨S1x256, .f32⟩
  | .hbm, ⟨60, _⟩ => ⟨S524288x256, .f32⟩
  | .hbm, ⟨61, _⟩ => ⟨S524288x256, .f32⟩
  | .hbm, ⟨62, _⟩ => ⟨S1x256, .f32⟩
  | .hbm, ⟨63, _⟩ => ⟨S524288x256, .f32⟩
  | .hbm, ⟨64, _⟩ => ⟨S524288x256, .f32⟩
  | _, _ => ⟨S524288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S_S524288x256 : S_.BroadcastsInDim S524288x256 (![] : Fin 0 → Fin S524288x256.rank)
  reducesTo_S524288x256_S524288_d1 : S524288x256.ReducesTo [1] S524288
  h_S_ : 0 < S_.numel
  bcast_S_S524288x1 : S_.BroadcastsInDim S524288x1 (![] : Fin 0 → Fin S524288x1.rank)
  bcast_S524288x1_S524288x256_0_1 : S524288x1.BroadcastsInDim S524288x256 (![0, 1] : Fin 2 → Fin S524288x256.rank)
  gather_S100x256_S524288x1_S524288x256_1_0_n_n_0_1_1256_wf : GatherDims.WF S100x256 S524288x1 S524288x256 [1] [0] [] [0] [] 1 ![1, 256]
  dot_S524288x3_S3x256_S524288x256_1_0_0_1_n_n_wf : DotDims.WF S524288x3 S3x256 S524288x256 [1] [0] [0] [1] [] []
  dot_S524288x256_S256x256_S524288x256_1_0_0_1_n_n_wf : DotDims.WF S524288x256 S256x256 S524288x256 [1] [0] [0] [1] [] []

variable [Facts₀]

def gather_S100x256_S524288x1_S524288x256_1_0_n_n_0_1_1256 : GatherDims S100x256 S524288x1 S524288x256 where
  offsetDims := [1]
  collapsedSliceDims := [0]
  operandBatchingDims := []
  startIndicesBatchingDims := []
  startIndexMap := [0]
  indexVectorDim := 1
  sliceSizes := ![1, 256]
  wf := gather_S100x256_S524288x1_S524288x256_1_0_n_n_0_1_1256_wf
def dot_S524288x3_S3x256_S524288x256_1_0_0_1_n_n : DotDims S524288x3 S3x256 S524288x256 where
  lhsContracting := [1]
  rhsContracting := [0]
  lhsNonContracting := [0]
  rhsNonContracting := [1]
  lhsBatch := []
  rhsBatch := []
  wf := dot_S524288x3_S3x256_S524288x256_1_0_0_1_n_n_wf
def dot_S524288x256_S256x256_S524288x256_1_0_0_1_n_n : DotDims S524288x256 S256x256 S524288x256 where
  lhsContracting := [1]
  rhsContracting := [0]
  lhsNonContracting := [0]
  rhsNonContracting := [1]
  lhsBatch := []
  rhsBatch := []
  wf := dot_S524288x256_S256x256_S524288x256_1_0_0_1_n_n_wf

class Facts : Prop extends Facts₀ where

variable [Facts]
-- ==== Proof.IndexDomain.lean ====
/-
  The precondition's last conjunct read back: every type index is nonnegative as a signed 32-bit word.

  The precondition is a conjunction of `jnp.all`s joined by `and`; its last conjunct is the reduction by `and`
  of the elementwise signed comparison `z ≥ 0`. A conjunction that is 1 has its last conjunct 1, a reduction by
  `and` that is 1 met only 1s, and a signed `≥` that is 1 orders the signed readings.
-/
import proofs.«417643_j84361747628495_2_alg».proof.Pre_finite_inputs
import Idealize.ShloMosaic.Lib.ReduceAll
import Idealize.ShloMosaic.Lib.ValueIdx

namespace Cert.EmbedNorm

open Idealize.ShloMosaic Idealize.ShloMosaic.ValueIdx Cert.Pre_finite_inputs

/-- The scalar shape has one index. -/
instance : Subsingleton S_.Idx := ⟨fun _ _ => funext fun d => d.elim0⟩

/-- Under the precondition every entry of the index vector `z` is nonnegative, read signed. -/
theorem index_nonneg {F : FTy → Type} [FloatOps F] [Cert.Pre_finite_inputs.Facts]
    (z : IVec S524288 32) (x : FVec F S524288x3 .f32) (emb : FVec F S100x256 .f32) (w1 : FVec F S3x256 .f32)
    (b1 : FVec F S256 .f32) (w2 : FVec F S256x256 .f32) (b2 gamma beta : FVec F S256 .f32)
    (h : fn (F := F) z x emb w1 b1 w2 b2 gamma beta = fun _ => 1#1) (i : S524288.Idx) : 0 ≤ (z i).toInt := by
  have h0 := congrFun h ix0
  dsimp only [fn, fn_part1, fn_part2] at h0
  have h1 := (IntOp.andi_eq_one.1 h0).2
  have h2 := Host.reduce_andi_all _ _ _ _ _ h1 i
  have h3 : (0#32 : BitVec 32).toInt ≤ (z i).toInt := IntOp.cmpi_sge.1 h2
  simpa using h3

end Cert.EmbedNorm
-- ==== Proof.RowSpec.lean ====
/-
  The specification, row by row, and the two facts about 32-bit words it rests on.

  Row r of the result depends on the type index z[r], on the three coordinates x[r, ·], and on the weight arrays:
    hidden[d]  = emb[row(z[r]), d] + ( Σₖ silu(Σⱼ x[r, j] · w1[j, k] + b1[k]) · w2[k, d] + b2[d] )
    out[d]     = (hidden[d] − μ) · rsqrt(σ² + ε) · gamma[d] + beta[d],
  μ the mean of hidden over d and σ² the mean of (hidden − μ)², silu(a) = a · logistic(a), and row(w) the signed
  reading of the word w clamped into [0, 99].

  The words: the signed clip of w into [0, 99] is, as a natural number, min (w read signed, negatives at 0) 99; and the
  sum over the table's rows t of "t equals the clipped word" (as 0 or 1) times a value at t is the value at that row,
  because every other term is 0 · (something) = 0 on the extended reals.
-/
import Idealize.ShloMosaic.PureOps.Ideal
import Idealize.ShloMosaic.PureOps.Ideal.Laws
import Idealize.ShloMosaic.Lib.ValueIdx
import Idealize.ShloMosaic.Lib.WordArith
import Idealize.ShloMosaic.Lib.Affine

noncomputable section

open scoped BigOperators

namespace Cert.EmbedNorm

open Idealize.ShloMosaic Idealize.ShloMosaic.ValueIdx

/-! ## The table row a word selects -/

/-- The table row an index word selects: its signed reading, negatives at 0, clamped at the last row 99. -/
def tableRow (w : BitVec 32) : Fin 100 := ⟨min w.toInt.toNat 99, by omega⟩

/-- The signed clip of a word into [0, 99], as a natural number. -/
theorem clip_toNat (w : BitVec 32) : (IntOp.minsi 99#32 (IntOp.maxsi 0#32 w)).toNat = (tableRow w).val := by
  have h31 : (IntOp.maxsi 0#32 w).toNat < 2 ^ 31 := by
    have := WordArith.two_mul_toNat_maxsi_zero_lt w
    show (Scalar.maxsi 0#32 w).toNat < 2 ^ 31
    omega
  rw [WordArith.toNat_minsi_of_lt 99#32 _ (by decide) h31, WordArith.toNat_maxsi_zero]
  show min 99 w.toInt.toNat = min w.toInt.toNat 99
  exact Nat.min_comm _ _

/-- One entry of the selection matrix: row t against the clipped word c, widened and converted, is 1 when t is c's
    value and 0 otherwise. -/
theorem select_entry (t : Fin 100) (c : BitVec 32) :
    (FloatOps.sitofp (F := Ideal) .f32 ((IntOp.cmpi .eq (BitVec.ofNat 32 t.val) c).setWidth 32) : EReal)
      = if t.val = c.toNat then 1 else 0 := by
  have ht : t.val < 2 ^ 32 := by have := t.isLt; omega
  by_cases h : t.val = c.toNat
  · have e : BitVec.ofNat 32 t.val = c :=
      BitVec.eq_of_toNat_eq (by rw [BitVec.toNat_ofNat, Nat.mod_eq_of_lt ht]; exact h)
    have e1 : IntOp.cmpi .eq (BitVec.ofNat 32 t.val) c = 1#1 := IntOp.cmpi_eq.2 e
    rw [if_pos h, e1]
    show ((((1#1 : BitVec 1).setWidth 32).toInt : ℝ) : EReal) = 1
    have : ((1#1 : BitVec 1).setWidth 32).toInt = 1 := by decide
    rw [this]; norm_num
  · have e : ¬ BitVec.ofNat 32 t.val = c := fun e => h (by rw [← e, BitVec.toNat_ofNat]; exact (Nat.mod_eq_of_lt ht).symm)
    have e1 : IntOp.cmpi .eq (BitVec.ofNat 32 t.val) c = 0#1 := by
      have := mt IntOp.cmpi_eq.1 e
      generalize IntOp.cmpi .eq (BitVec.ofNat 32 t.val) c = b at this ⊢
      revert this; revert b; decide
    rw [if_neg h, e1]
    show ((((0#1 : BitVec 1).setWidth 32).toInt : ℝ) : EReal) = 0
    have : ((0#1 : BitVec 1).setWidth 32).toInt = 0 := by decide
    rw [this]; norm_num

/-- The selection sum: over the table's rows, (t is the word's value, as 0 or 1) times a value at t is the value at
    that row. No finiteness is needed: 0 · a = 0 for every extended real a. -/
theorem select_sum (c : BitVec 32) (r : Fin 100) (hc : c.toNat = r.val) (f : Fin 100 → EReal) :
    ∑ t : Fin 100, (if t.val = c.toNat then (1 : EReal) else 0) * f t = f r := by
  rw [Finset.sum_eq_single r]
  · rw [if_pos hc.symm, one_mul]
  · intro t _ ht
    rw [if_neg (fun e => ht (Fin.ext (e.trans hc))), zero_mul]
  · intro h; exact absurd (Finset.mem_univ r) h

/-! ## One row of the result -/

/-- The position network's first layer at hidden unit k, before the activation. -/
def preact (xr : Fin 3 → EReal) (w1 : FVec Ideal ⟨2, ![3, 256]⟩ .f32) (b1 : FVec Ideal ⟨1, ![256]⟩ .f32) (k : Fin 256) : EReal :=
  (∑ j : Fin 3, xr j * w1 (ix2 j k)) + b1 (ix1 k)

/-- The row before normalisation: the selected table row plus the position network's output. -/
def hidden (zr : BitVec 32) (xr : Fin 3 → EReal) (emb : FVec Ideal ⟨2, ![100, 256]⟩ .f32)
    (w1 : FVec Ideal ⟨2, ![3, 256]⟩ .f32) (b1 : FVec Ideal ⟨1, ![256]⟩ .f32)
    (w2 : FVec Ideal ⟨2, ![256, 256]⟩ .f32) (b2 : FVec Ideal ⟨1, ![256]⟩ .f32) (d : Fin 256) : EReal :=
  emb (ix2 (tableRow zr) d)
    + ((∑ k : Fin 256, (preact xr w1 b1 k * Ideal.logistic (preact xr w1 b1 k)) * w2 (ix2 k d)) + b2 (ix1 d))

/-- The mean of a row of 256 values: their sum divided by the word of 256. -/
def rowMean (h : Fin 256 → EReal) : EReal := Ideal.div (∑ d : Fin 256, h d) (Ideal.ofBits .f32 0x43800000#32)

/-- The normalised row: centred, scaled by the reciprocal root of the variance plus ε, then the affine map. -/
def normRow (h : Fin 256 → EReal) (gamma beta : FVec Ideal ⟨1, ![256]⟩ .f32) (d : Fin 256) : EReal :=
  ((h d - rowMean h)
      * Ideal.rsqrt (rowMean (fun e => (h e - rowMean h) * (h e - rowMean h)) + Ideal.ofBits .f32 0x3727C5AC#32))
    * gamma (ix1 d) + beta (ix1 d)

/-- Entry (r, d) of the result, as a function of the argument arrays. -/
def entry (z : IVec ⟨1, ![524288]⟩ 32) (x : FVec Ideal ⟨2, ![524288, 3]⟩ .f32) (emb : FVec Ideal ⟨2, ![100, 256]⟩ .f32)
    (w1 : FVec Ideal ⟨2, ![3, 256]⟩ .f32) (b1 : FVec Ideal ⟨1, ![256]⟩ .f32)
    (w2 : FVec Ideal ⟨2, ![256, 256]⟩ .f32) (b2 gamma beta : FVec Ideal ⟨1, ![256]⟩ .f32)
    (r : Fin 524288) (d : Fin 256) : EReal :=
  normRow (hidden (z (ix1 r)) (fun j => x (ix2 r j)) emb w1 b1 w2 b2) gamma beta d

/-- The whole result array. -/
def result (z : IVec ⟨1, ![524288]⟩ 32) (x : FVec Ideal ⟨2, ![524288, 3]⟩ .f32) (emb : FVec Ideal ⟨2, ![100, 256]⟩ .f32)
    (w1 : FVec Ideal ⟨2, ![3, 256]⟩ .f32) (b1 : FVec Ideal ⟨1, ![256]⟩ .f32)
    (w2 : FVec Ideal ⟨2, ![256, 256]⟩ .f32) (b2 gamma beta : FVec Ideal ⟨1, ![256]⟩ .f32) :
    FVec Ideal ⟨2, ![524288, 256]⟩ .f32 :=
  fun i => entry z x emb w1 b1 w2 b2 gamma beta ⟨(i 0).val, (i 0).isLt⟩ ⟨(i 1).val, (i 1).isLt⟩

theorem result_ix2 (z : IVec ⟨1, ![524288]⟩ 32) (x : FVec Ideal ⟨2, ![524288, 3]⟩ .f32) (emb : FVec Ideal ⟨2, ![100, 256]⟩ .f32)
    (w1 : FVec Ideal ⟨2, ![3, 256]⟩ .f32) (b1 : FVec Ideal ⟨1, ![256]⟩ .f32)
    (w2 : FVec Ideal ⟨2, ![256, 256]⟩ .f32) (b2 gamma beta : FVec Ideal ⟨1, ![256]⟩ .f32) (r : Fin 524288) (d : Fin 256) :
    result z x emb w1 b1 w2 b2 gamma beta (ix2 r d) = entry z x emb w1 b1 w2 b2 gamma beta r d := rfl

end Cert.EmbedNorm

end
-- ==== Proof.KernelOps.lean ====
/-
  The kernel body's non-pointwise operations read at an entry, at the exact reals.

  Layout: a vector laid out as one row and repeated over n rows reads, at (p, c), its entry c; a vector laid out as
  one column reads, at (p, 0), its entry p; and a column repeated over b columns reads, at (p, c), the column's
  entry p.
  Products: a matrix product into a zero accumulator, read at an entry, is the sum over the one contracted axis of the
  operands' products. Three are met: the selection matrix contracted with the table along the table's ROW axis (the
  left operand is transposed: its entry (t, p) pairs with the table's entry (t, d)), and the two plain products
  rows × columns of the position network.
  The selection matrix itself: entry (t, p) is 1 when t is the value of row p's clipped index word and 0 otherwise.
-/
import proofs.«417643_j84361747628495_2_alg».proof.Proof.Gen.KernelIdeal
import proofs.«417643_j84361747628495_2_alg».proof.Proof.RowSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.EmbedNorm

open Idealize.ShloMosaic Idealize.ShloMosaic.ValueIdx

/-! ## Layout -/

/-- A vector laid out as one row and repeated over `n` rows reads, at `(p, c)`, its entry `c`. -/
theorem rowOver_apply {α : Type} {a n : ℕ} (v : (⟨1, ![a]⟩ : Shape).Idx → α)
    (h1 : (⟨1, ![a]⟩ : Shape).ShapeCasts ⟨2, ![1, a]⟩) (h2 : (⟨2, ![1, a]⟩ : Shape).Broadcasts ⟨2, ![n, a]⟩)
    (p : Fin n) (c : Fin a) :
    broadcastTo ⟨2, ![n, a]⟩ (shapeCast ⟨2, ![1, a]⟩ v h1) h2 (ix2 p c) = v (ix1 c) :=
  (broadcastTo_1b_ab_apply _ h2 p c).trans (shapeCast_a_1a_apply v h1 0 c)

/-- A vector laid out as one column reads, at `(p, u)`, its entry `p`. -/
theorem colCast_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-- A column repeated over `b` columns reads, at `(p, c)`, the column's entry `p`. -/
theorem colOver_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A product into a zero accumulator, as a sum over the contracted axis -/

/-- Whatever the dimension numbers, once the operand entries met along the one contracted axis are named. -/
theorem matmul_zero_sum {sl sr so : Shape} {φ₁ φ₂ : FTy} (D : DotDims sl sr so) (prec : Option ContractPrecision) (n : ℕ)
    (hr : D.contr.rank = 1) (hs : D.contr.size ⟨0, by omega⟩ = n)
    (L : FVec Ideal sl φ₁) (R : FVec Ideal sr φ₂) (j : so.Idx) (li : Fin n → sl.Idx) (ri : Fin n → sr.Idx)
    (hl : ∀ k, D.lhsIdx j ((contrEquiv1 D n hr hs).symm k) = li k)
    (hr' : ∀ k, D.rhsIdx j ((contrEquiv1 D n hr hs).symm k) = ri k) :
    matmul D prec L R (constant (F := Ideal) so .f32 0x00000000#32) j = ∑ k : Fin n, L (li k) * R (ri k) := by
  refine (Ideal.matmul_constant_zero_apply D prec L R j).trans ?_
  rw [← Equiv.sum_comp (contrEquiv1 D n hr hs).symm]
  exact Finset.sum_congr rfl fun k _ => by rw [hl k, hr' k]

open Cert.KernelIdeal Cert.KernelIdeal.Facts₀ Cert.KernelIdeal.Facts

/-! ### The selection product: table rows contracted against the transposed selection matrix -/

theorem sel_lhs_0 (i : S4096x256.Idx) (q : dot_S100x4096_S100x256_S4096x256_0_0_1_1_n_n.contr.Idx) :
    (dot_S100x4096_S100x256_S4096x256_0_0_1_1_n_n.lhsIdx i q 0).val = (q ⟨0, by decide⟩).val :=
  dot_S100x4096_S100x256_S4096x256_0_0_1_1_n_n.lhsIdx_val_of_single rfl i q
theorem sel_lhs_1 (i : S4096x256.Idx) (q : dot_S100x4096_S100x256_S4096x256_0_0_1_1_n_n.contr.Idx) :
    (dot_S100x4096_S100x256_S4096x256_0_0_1_1_n_n.lhsIdx i q 1).val = (i 0).val := by
  unfold DotDims.lhsIdx
  rw [dif_neg (show ¬(1 : Fin S100x4096.rank) ∈ dot_S100x4096_S100x256_S4096x256_0_0_1_1_n_n.lhsBatch by decide), dif_pos (show (1 : Fin S100x4096.rank) ∈ dot_S100x4096_S100x256_S4096x256_0_0_1_1_n_n.lhsNonContracting by decide)]
  rfl
theorem sel_rhs_0 (i : S4096x256.Idx) (q : dot_S100x4096_S100x256_S4096x256_0_0_1_1_n_n.contr.Idx) :
    (dot_S100x4096_S100x256_S4096x256_0_0_1_1_n_n.rhsIdx i q 0).val = (q ⟨0, by decide⟩).val :=
  dot_S100x4096_S100x256_S4096x256_0_0_1_1_n_n.rhsIdx_val_of_single rfl i q
theorem sel_rhs_1 (i : S4096x256.Idx) (q : dot_S100x4096_S100x256_S4096x256_0_0_1_1_n_n.contr.Idx) :
    (dot_S100x4096_S100x256_S4096x256_0_0_1_1_n_n.rhsIdx i q 1).val = (i 1).val := by
  unfold DotDims.rhsIdx
  rw [dif_neg (show ¬(1 : Fin S100x256.rank) ∈ dot_S100x4096_S100x256_S4096x256_0_0_1_1_n_n.rhsBatch by decide), dif_pos (show (1 : Fin S100x256.rank) ∈ dot_S100x4096_S100x256_S4096x256_0_0_1_1_n_n.rhsNonContracting by decide)]
  rfl

/-- The selection product at `(p, d)`: the sum over the table's rows `t` of the selection matrix at `(t, p)` times the
    table at `(t, d)`. -/
theorem sel_product_apply (prec : Option ContractPrecision) (L : FVec Ideal S100x4096 .f32) (R : FVec Ideal S100x256 .f32)
    (p : Fin 4096) (d : Fin 256) :
    matmul dot_S100x4096_S100x256_S4096x256_0_0_1_1_n_n prec L R (constant (F := Ideal) S4096x256 .f32 0x00000000#32) (ix2 p d)
      = ∑ t : Fin 100, L (ix2 t p) * R (ix2 t d) :=
  matmul_zero_sum dot_S100x4096_S100x256_S4096x256_0_0_1_1_n_n prec 100 rfl rfl L R (ix2 p d)
    (fun t => ix2 t p) (fun t => ix2 t d)
    (fun k => funext fun a => Fin.ext (by
      have hk := contrEquiv1_symm_val dot_S100x4096_S100x256_S4096x256_0_0_1_1_n_n 100 rfl rfl k
      match a with
      | ⟨0, _⟩ => exact (sel_lhs_0 _ _).trans hk
      | ⟨1, _⟩ => exact sel_lhs_1 _ _))
    (fun k => funext fun a => Fin.ext (by
      have hk := contrEquiv1_symm_val dot_S100x4096_S100x256_S4096x256_0_0_1_1_n_n 100 rfl rfl k
      match a with
      | ⟨0, _⟩ => exact (sel_rhs_0 _ _).trans hk
      | ⟨1, _⟩ => exact sel_rhs_1 _ _))

/-! ### The position network's first product: rows of x against columns of w1 -/

theorem fst_lhs_0 (i : S4096x256.Idx) (q : dot_S4096x3_S3x256_S4096x256_1_0_0_1_n_n.contr.Idx) :
    (dot_S4096x3_S3x256_S4096x256_1_0_0_1_n_n.lhsIdx i q 0).val = (i 0).val := by
  unfold DotDims.lhsIdx
  rw [dif_neg (show ¬(0 : Fin S4096x3.rank) ∈ dot_S4096x3_S3x256_S4096x256_1_0_0_1_n_n.lhsBatch by decide), dif_pos (show (0 : Fin S4096x3.rank) ∈ dot_S4096x3_S3x256_S4096x256_1_0_0_1_n_n.lhsNonContracting by decide)]
  rfl
theorem fst_lhs_1 (i : S4096x256.Idx) (q : dot_S4096x3_S3x256_S4096x256_1_0_0_1_n_n.contr.Idx) :
    (dot_S4096x3_S3x256_S4096x256_1_0_0_1_n_n.lhsIdx i q 1).val = (q ⟨0, by decide⟩).val :=
  dot_S4096x3_S3x256_S4096x256_1_0_0_1_n_n.lhsIdx_val_of_single rfl i q
theorem fst_rhs_0 (i : S4096x256.Idx) (q : dot_S4096x3_S3x256_S4096x256_1_0_0_1_n_n.contr.Idx) :
    (dot_S4096x3_S3x256_S4096x256_1_0_0_1_n_n.rhsIdx i q 0).val = (q ⟨0, by decide⟩).val :=
  dot_S4096x3_S3x256_S4096x256_1_0_0_1_n_n.rhsIdx_val_of_single rfl i q
theorem fst_rhs_1 (i : S4096x256.Idx) (q : dot_S4096x3_S3x256_S4096x256_1_0_0_1_n_n.contr.Idx) :
    (dot_S4096x3_S3x256_S4096x256_1_0_0_1_n_n.rhsIdx i q 1).val = (i 1).val := by
  unfold DotDims.rhsIdx
  rw [dif_neg (show ¬(1 : Fin S3x256.rank) ∈ dot_S4096x3_S3x256_S4096x256_1_0_0_1_n_n.rhsBatch by decide), dif_pos (show (1 : Fin S3x256.rank) ∈ dot_S4096x3_S3x256_S4096x256_1_0_0_1_n_n.rhsNonContracting by decide)]
  rfl

/-- The first product at `(p, k)`: the sum over the three coordinates `j` of the left operand at `(p, j)` times the
    right at `(j, k)`, whatever the operands' formats. -/
theorem fst_product_apply {φ₁ φ₂ : FTy} (prec : Option ContractPrecision) (L : FVec Ideal S4096x3 φ₁) (R : FVec Ideal S3x256 φ₂)
    (p : Fin 4096) (k : Fin 256) :
    matmul dot_S4096x3_S3x256_S4096x256_1_0_0_1_n_n prec L R (constant (F := Ideal) S4096x256 .f32 0x00000000#32) (ix2 p k)
      = ∑ j : Fin 3, L (ix2 p j) * R (ix2 j k) :=
  matmul_zero_sum dot_S4096x3_S3x256_S4096x256_1_0_0_1_n_n prec 3 rfl rfl L R (ix2 p k)
    (fun j => ix2 p j) (fun j => ix2 j k)
    (fun j => funext fun a => Fin.ext (by
      have hk := contrEquiv1_symm_val dot_S4096x3_S3x256_S4096x256_1_0_0_1_n_n 3 rfl rfl j
      match a with
      | ⟨0, _⟩ => exact fst_lhs_0 _ _
      | ⟨1, _⟩ => exact (fst_lhs_1 _ _).trans hk))
    (fun j => funext fun a => Fin.ext (by
      have hk := contrEquiv1_symm_val dot_S4096x3_S3x256_S4096x256_1_0_0_1_n_n 3 rfl rfl j
      match a with
      | ⟨0, _⟩ => exact (fst_rhs_0 _ _).trans hk
      | ⟨1, _⟩ => exact fst_rhs_1 _ _))

/-! ### The position network's second product: activations against columns of w2 -/

theorem snd_lhs_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem snd_lhs_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem snd_rhs_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem snd_rhs_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The second product at `(p, d)`: the sum over the hidden units `k` of the left operand at `(p, k)` times the right
    at `(k, d)`. -/
theorem snd_product_apply {φ₁ φ₂ : FTy} (prec : Option ContractPrecision) (L : FVec Ideal S4096x256 φ₁) (R : FVec Ideal S256x256 φ₂)
    (p : Fin 4096) (d : Fin 256) :
    matmul dot_S4096x256_S256x256_S4096x256_1_0_0_1_n_n prec L R (constant (F := Ideal) S4096x256 .f32 0x00000000#32) (ix2 p d)
      = ∑ k : Fin 256, L (ix2 p k) * R (ix2 k d) :=
  matmul_zero_sum dot_S4096x256_S256x256_S4096x256_1_0_0_1_n_n prec 256 rfl rfl L R (ix2 p d)
    (fun k => ix2 p k) (fun k => ix2 k d)
    (fun k => funext fun a => Fin.ext (by
      have hk := contrEquiv1_symm_val dot_S4096x256_S256x256_S4096x256_1_0_0_1_n_n 256 rfl rfl k
      match a with
      | ⟨0, _⟩ => exact snd_lhs_0 _ _
      | ⟨1, _⟩ => exact (snd_lhs_1 _ _).trans hk))
    (fun k => funext fun a => Fin.ext (by
      have hk := contrEquiv1_symm_val dot_S4096x256_S256x256_S4096x256_1_0_0_1_n_n 256 rfl rfl k
      match a with
      | ⟨0, _⟩ => exact (snd_rhs_0 _ _).trans hk
      | ⟨1, _⟩ => exact snd_rhs_1 _ _))

/-! ## The selection matrix -/

/-- Entry `(t, p)` of the selection matrix — the row counter `t` compared for equality with row `p`'s clipped
    index word, widened and converted — is 1 when `t` is that word's value and 0 otherwise. -/
theorem selection_apply (cl : IVec S4096 32) (hi : S100x4096.Iotas .tc 32 [0]) (hc : S4096.ShapeCasts S1x4096)
    (hb : S1x4096.Broadcasts S100x4096) (hw : 1 < 32) (t : Fin 100) (p : Fin 4096) :
    (sitofp .f32 (extui 32 (cmpi .eq (iota .tc S100x4096 32 [0] hi) (broadcastTo S100x4096 (shapeCast S1x4096 cl hc) hb)) hw)
        : FVec Ideal S100x4096 .f32) (ix2 t p)
      = if t.val = (cl (ix1 p)).toNat then 1 else 0 := by
  have e : broadcastTo S100x4096 (shapeCast S1x4096 cl hc) hb (ix2 t p) = cl (ix1 p) := rowOver_apply cl hc hb t p
  have e2 : iota .tc S100x4096 32 [0] hi (ix2 t p) = BitVec.ofNat 32 t.val := by
    show BitVec.ofNat 32 (0 * 100 + t.val) = _
    rw [Nat.zero_mul, Nat.zero_add]
  show FloatOps.sitofp (F := Ideal) .f32
      ((IntOp.cmpi .eq (iota .tc S100x4096 32 [0] hi (ix2 t p)) (broadcastTo S100x4096 (shapeCast S1x4096 cl hc) hb (ix2 t p))).setWidth 32) = _
  rw [e, e2]
  exact select_entry t _

end Cert.EmbedNorm

end
-- ==== Proof.KernelRow.lean ====
/-
  One block of the kernel's result, entry by entry.

  Row p of a block before normalisation is the specification's `hidden` row of that row's index word and
  coordinates: the selection product picks the table row of the clipped word (every other term of its sum is
  0 · something), the two narrowings to a 16-bit format are the identity on exact reals, so the position network's two
  products are plain sums, and a bias vector laid out as a row and repeated reads its own entry.
  A lane sum of a 4096 × 256 block at row p is the sum over the 256 columns of that row. The normalised entry (p, d)
  then is `normRow` of row p: the mean column, repeated over the columns, reads the row's mean at every column, so
  the centred block's row p is the row minus its mean, and the second lane sum is the sum of its squares.
-/
import proofs.«417643_j84361747628495_2_alg».proof.Proof.Gen.KernelIdeal.Value
import proofs.«417643_j84361747628495_2_alg».proof.Proof.KernelOps

noncomputable section

open scoped BigOperators

namespace Cert.EmbedNorm

open Idealize.ShloMosaic Idealize.ShloMosaic.ValueIdx Cert.KernelIdeal Cert.KernelIdeal.Gen

/-! ## The row before normalisation -/

/-- Entry `(p, d)` of the block before normalisation, from the block's loads: the `hidden` row of row `p`'s index
    word and coordinates. -/
theorem pay2_apply (P0 : Vec Ideal S4096 .i32) (P1 : Vec Ideal S100x256 .f32) (P2 : Vec Ideal S4096x3 .f32)
    (P3 : Vec Ideal S3x256 .f32) (P4 : Vec Ideal S256 .f32) (P5 : Vec Ideal S256x256 .f32) (P6 : Vec Ideal S256 .f32)
    (p : Fin 4096) (d : Fin 256) :
    k0_pay2 (F := Ideal) P0 P1 P2 P3 P4 P5 P6 (ix2 p d)
      = hidden (P0 (ix1 p)) (fun j => P2 (ix2 p j)) P1 P3 P4 P5 P6 d := by
  unfold k0_pay2 hidden
  dsimp only
  refine congrArg₂ (· + ·) ?_ (congrArg₂ (· + ·) ?_ ?_)
  · -- the selection product picks the table row of the clipped word
    refine (sel_product_apply (some .fp32) _ P1 p d).trans ?_
    refine (Finset.sum_congr rfl fun t _ =>
      congrArg (· * P1 (ix2 t d)) (selection_apply _ _ _ _ _ t p)).trans ?_
    exact select_sum _ (tableRow (P0 (ix1 p))) (clip_toNat (P0 (ix1 p))) (fun t => P1 (ix2 t d))
  · -- the second product over the activations
    refine (snd_product_apply none _ _ p d).trans ?_
    refine Finset.sum_congr rfl fun k _ => ?_
    have ha : (addf (matmul dot_S4096x3_S3x256_S4096x256_1_0_0_1_n_n none (truncf .bf16 P2 bitsLt_bf16_f32)
          (truncf .bf16 P3 bitsLt_bf16_f32) (constant (F := Ideal) S4096x256 .f32 0x00000000#32))
        (broadcastTo S4096x256 (shapeCast S1x256 P4 shapeCasts_S256_S1x256) broadcasts_S1x256_S4096x256)) (ix2 p k)
        = preact (fun j => P2 (ix2 p j)) P3 P4 k :=
      congrArg₂ (· + ·) (fst_product_apply none _ _ p k) (rowOver_apply P4 _ _ p k)
    exact congrArg₂ (· * ·) (congrArg₂ (fun a b => a * Ideal.logistic b) ha ha) rfl
  · exact rowOver_apply P6 _ _ p d

/-! ## A lane sum read at a row -/

/-- The sum over the lanes of a 4096 × 256 block, at row `p`, is the sum over the 256 columns of row `p`. -/
theorem rowSum_apply (V : FVec Ideal S4096x256 .f32) (hred : S4096x256.Reduces [1] S4096) (hφ : FKind.Formats .f32)
    (hacc : (0x00000000#32 : BitVec 32) = 0x00000000#32) (p : Fin 4096) :
    multiReduction .add [1] S4096 V 0x00000000#32 hred hφ hacc (ix1 p) = ∑ e : Fin 256, V (ix2 p e) := by
  refine (Ideal.multiReduction_add_single V 0x00000000#32 hred hφ hacc (ix1 p)).trans ?_
  refine Finset.sum_congr rfl fun e _ => congrArg V (funext fun a => Fin.ext ?_)
  match a with
  | ⟨0, _⟩ => rfl
  | ⟨1, _⟩ => rfl

/-! ## The normalised entry -/

/-- The body's normalisation of a block `V`, read at the entry, the two rows and the two columns that
    meet at `(p, d)`, is `normRow` of row `p` of `V`. -/
theorem norm_block (V : FVec Ideal S4096x256 .f32) (γ β : FVec Ideal S256 .f32) (hred : S4096x256.Reduces [1] S4096)
    (hφ : FKind.Formats .f32) (hacc : (0x00000000#32 : BitVec 32) = 0x00000000#32) (hsc : S4096.ShapeCasts S4096x1)
    (hbc : S4096x1.Broadcasts S4096x256) (p : Fin 4096) (d : Fin 256)
    (i0 : S4096x256.Idx) (i1 i2 : S4096.Idx) (i3 i4 : S256.Idx)
    (h0 : i0 = ix2 p d) (h1 : i1 = ix1 p) (h2 : i2 = ix1 p) (h3 : i3 = ix1 d) (h4 : i4 = ix1 d) :
    (FloatOps.addf (FloatOps.mulf (FloatOps.mulf (FloatOps.subf (V i0) (FloatOps.divf ((multiReduction .add [1] S4096 V 0x00000000#32 hred hφ hacc) i1) (Scalar.ofBits (F := Ideal) .f32 0x43800000#32))) (FloatOps.rsqrt (FloatOps.addf (FloatOps.divf ((multiReduction .add [1] S4096 (mulf (subf V (broadcastTo S4096x256 (divf (shapeCast S4096x1 (multiReduction .add [1] S4096 V 0x00000000#32 hred hφ hacc) hsc) (broadcast S4096x1 (Scalar.ofBits (F := Ideal) .f32 0x43800000#32))) hbc)) (subf V (broadcastTo S4096x256 (divf (shapeCast S4096x1 (multiReduction .add [1] S4096 V 0x00000000#32 hred hφ hacc) hsc) (broadcast S4096x1 (Scalar.ofBits (F := Ideal) .f32 0x43800000#32))) hbc))) 0x00000000#32 hred hφ hacc) i2) (Scalar.ofBits (F := Ideal) .f32 0x43800000#32)) (Scalar.ofBits (F := Ideal) .f32 0x3727C5AC#32)))) (γ i3)) (β i4) : Ideal .f32)
      = normRow (fun e => V (ix2 p e)) γ β d := by
  subst h0 h1 h2 h3 h4
  have hm : (multiReduction .add [1] S4096 V 0x00000000#32 hred hφ hacc) (ix1 p) = ∑ e : Fin 256, V (ix2 p e) :=
    rowSum_apply V hred hφ hacc p
  have hdev : ∀ e : Fin 256, (subf V (broadcastTo S4096x256 (divf (shapeCast S4096x1 (multiReduction .add [1] S4096 V 0x00000000#32 hred hφ hacc) hsc) (broadcast S4096x1 (Scalar.ofBits (F := Ideal) .f32 0x43800000#32))) hbc)) (ix2 p e)
      = V (ix2 p e) - rowMean (fun e => V (ix2 p e)) := fun e => by
    show V (ix2 p e) - _ = V (ix2 p e) - _
    refine congrArg (V (ix2 p e) - ·) ?_
    refine (colOver_apply _ hbc p e).trans ?_
    show Ideal.div (shapeCast S4096x1 _ hsc (ix2 p (0 : Fin 1))) _ = Ideal.div (∑ e : Fin 256, V (ix2 p e)) _
    rw [colCast_apply _ hsc p 0, hm]
    rfl
  have hv : (multiReduction .add [1] S4096 (mulf (subf V (broadcastTo S4096x256 (divf (shapeCast S4096x1 (multiReduction .add [1] S4096 V 0x00000000#32 hred hφ hacc) hsc) (broadcast S4096x1 (Scalar.ofBits (F := Ideal) .f32 0x43800000#32))) hbc)) (subf V (broadcastTo S4096x256 (divf (shapeCast S4096x1 (multiReduction .add [1] S4096 V 0x00000000#32 hred hφ hacc) hsc) (broadcast S4096x1 (Scalar.ofBits (F := Ideal) .f32 0x43800000#32))) hbc))) 0x00000000#32 hred hφ hacc) (ix1 p)
      = ∑ e : Fin 256, (V (ix2 p e) - rowMean (fun e => V (ix2 p e))) * (V (ix2 p e) - rowMean (fun e => V (ix2 p e))) :=
    (rowSum_apply _ hred hφ hacc p).trans (Finset.sum_congr rfl fun e _ => by
      show (subf V (broadcastTo S4096x256 (divf (shapeCast S4096x1 (multiReduction .add [1] S4096 V 0x00000000#32 hred hφ hacc) hsc) (broadcast S4096x1 (Scalar.ofBits (F := Ideal) .f32 0x43800000#32))) hbc)) (ix2 p e) * (subf V (broadcastTo S4096x256 (divf (shapeCast S4096x1 (multiReduction .add [1] S4096 V 0x00000000#32 hred hφ hacc) hsc) (broadcast S4096x1 (Scalar.ofBits (F := Ideal) .f32 0x43800000#32))) hbc)) (ix2 p e) = _
      rw [hdev e])
  show (((V (ix2 p d) - Ideal.div ((multiReduction .add [1] S4096 V 0x00000000#32 hred hφ hacc) (ix1 p)) _)
      * Ideal.rsqrt (Ideal.div ((multiReduction .add [1] S4096 (mulf (subf V (broadcastTo S4096x256 (divf (shapeCast S4096x1 (multiReduction .add [1] S4096 V 0x00000000#32 hred hφ hacc) hsc) (broadcast S4096x1 (Scalar.ofBits (F := Ideal) .f32 0x43800000#32))) hbc)) (subf V (broadcastTo S4096x256 (divf (shapeCast S4096x1 (multiReduction .add [1] S4096 V 0x00000000#32 hred hφ hacc) hsc) (broadcast S4096x1 (Scalar.ofBits (F := Ideal) .f32 0x43800000#32))) hbc))) 0x00000000#32 hred hφ hacc) (ix1 p)) _ + _))
      * γ (ix1 d) + β (ix1 d) : EReal) = _
  rw [hm, hv]
  rfl

/-- Entry `(p, d)` of what a grid point leaves in its output block, from the block's loads: `normRow` of the
    `hidden` row of row `p`'s index word and coordinates. -/
theorem block_entry (P0 : Vec Ideal S4096 .i32) (P1 : Vec Ideal S100x256 .f32) (P2 : Vec Ideal S4096x3 .f32)
    (P3 : Vec Ideal S3x256 .f32) (P4 : Vec Ideal S256 .f32) (P5 : Vec Ideal S256x256 .f32) (P6 P7 P8 : Vec Ideal S256 .f32)
    (p : Fin 4096) (d : Fin 256) :
    Cert.KernelIdeal.Value.E9 (F := Ideal) P0 P1 P2 P3 P4 P5 P6 P7 P8 (ix2 p d)
      = normRow (hidden (P0 (ix1 p)) (fun j => P2 (ix2 p j)) P1 P3 P4 P5 P6) P7 P8 d := by
  have hH : (fun e => k0_pay2 (F := Ideal) P0 P1 P2 P3 P4 P5 P6 (ix2 p e))
      = hidden (P0 (ix1 p)) (fun j => P2 (ix2 p j)) P1 P3 P4 P5 P6 :=
    funext fun e => pay2_apply P0 P1 P2 P3 P4 P5 P6 p e
  rw [← hH]
  exact norm_block (k0_pay2 (F := Ideal) P0 P1 P2 P3 P4 P5 P6) P7 P8 reduces_S4096x256_S4096 (.inl rfl) rfl
    shapeCasts_S4096_S4096x1 broadcasts_S4096x1_S4096x256 p d _ _ _ _ _
    (funext fun a => by match a with | ⟨0, _⟩ => rfl | ⟨1, _⟩ => rfl)
    (funext fun a => by match a with | ⟨0, _⟩ => rfl)
    (funext fun a => by match a with | ⟨0, _⟩ => rfl)
    (funext fun a => by match a with | ⟨0, _⟩ => rfl)
    (funext fun a => by match a with | ⟨0, _⟩ => rfl)

end Cert.EmbedNorm

end
-- ==== Proof.KernelArray.lean ====
/-
  From blocks to the array: after its run the kernel's result array is the specification's array.

  Grid point t works on rows 4096·t … 4096·t + 4095: its index-word block and its coordinate block are those rows of
  the two row-indexed arguments, the seven weight arrays are staged whole at every point, and the point writes back
  rows 4096·t … 4096·t + 4095 of the result. So what point t writes back is block t of the specification's array of the
  argument arrays (the block's entry (p, d) is `normRow` of the `hidden` row of array row 4096·t + p), and the 128
  blocks cover the array: row r is in the block of point r / 4096.
-/
import proofs.«417643_j84361747628495_2_alg».proof.Proof.Gen.KernelIdeal.Value
import proofs.«417643_j84361747628495_2_alg».proof.Proof.KernelRow
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.EmbedNorm.KernelArray

open Cert.KernelIdeal Cert.KernelIdeal.Gen Cert.EmbedNorm

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The specification's array of the argument arrays as the region finds them. -/
abbrev spec (c : Dev nD) : FVec Ideal S524288x256 .f32 :=
  result (V m c main_arg0) (V m c main_arg1) (V m c main_arg2) (V m c main_arg3) (V m c main_arg4) (V m c main_arg5)
    (V m c main_arg6) (V m c main_arg7) (V m c main_arg8)

/-- The array row under row `p` of grid point `t`'s blocks. -/
def rowAt (t : Fin cfg0.N) (p : Fin 4096) : Fin 524288 :=
  ⟨t.val * 4096 + p.val, by have := t.isLt; have h : cfg0.N = 128 := N_0; have := p.isLt; omega⟩

/-- The printed index maps, decided over the 128 grid points: the two row-indexed inputs and the output move with the
    point along the rows; every other window stays at block 0. -/
theorem idx_facts : ∀ t : Fin cfg0.N,
    win0_0.index t (0 : Fin 1) = t.val
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0 ∧ win0_7.index t (0 : Fin 1) = 0 ∧ win0_8.index t (0 : Fin 1) = 0
    ∧ win0_9.index t (0 : Fin 2) = t.val ∧ win0_9.index t (1 : Fin 2) = 0 :=
  (by decide +kernel : ∀ t : Fin grid0.N, _)

/-! ## Each input block as part of its argument array -/

theorem iblk0_apply (c : Dev nD) (t : Fin cfg0.N) (p : Fin 4096) :
    (iblk m c 0 t : Vec Ideal S4096 .i32) (ix1 p) = V m c main_arg0 (ix1 (rowAt t p)) := by
  have hi := (idx_facts t).1
  unfold iblk
  rw [View.read_apply]
  show V m c main_arg0 _ = V m c main_arg0 _
  congr 1
  funext a
  apply Fin.ext
  match a with
  | ⟨0, _⟩ => show win0_0.index t (0 : Fin 1) * 4096 + 1 * p.val = t.val * 4096 + p.val; rw [hi]; omega

theorem iblk1_apply (c : Dev nD) (t : Fin cfg0.N) (p : Fin 4096) (j : Fin 3) :
    (iblk m c 1 t : Vec Ideal S4096x3 .f32) (ix2 p j) = V m c main_arg1 (ix2 (rowAt t p) j) := by
  obtain ⟨-, h0, h1, -⟩ := idx_facts t
  unfold iblk
  rw [View.read_apply]
  show V m c main_arg1 _ = V m c main_arg1 _
  congr 1
  funext a
  apply Fin.ext
  match a with
  | ⟨0, _⟩ => show win0_1.index t (0 : Fin 2) * 4096 + 1 * p.val = t.val * 4096 + p.val; rw [h0]; omega
  | ⟨1, _⟩ => show win0_1.index t (1 : Fin 2) * 3 + 1 * j.val = j.val; rw [h1]; omega

theorem iblk2_eq (c : Dev nD) (t : Fin cfg0.N) : (iblk m c 2 t : Vec Ideal S100x256 .f32) = V m c main_arg2 := by
  obtain ⟨-, -, -, h0, h1, -⟩ := idx_facts t
  funext i
  unfold iblk
  rw [View.read_apply]
  show V m c main_arg2 _ = V m c main_arg2 _
  congr 1
  funext a
  apply Fin.ext
  match a with
  | ⟨0, _⟩ => show win0_2.index t (0 : Fin 2) * 100 + 1 * (i 0).val = (i 0).val; rw [h0]; omega
  | ⟨1, _⟩ => show win0_2.index t (1 : Fin 2) * 256 + 1 * (i 1).val = (i 1).val; rw [h1]; omega

theorem iblk3_eq (c : Dev nD) (t : Fin cfg0.N) : (iblk m c 3 t : Vec Ideal S3x256 .f32) = V m c main_arg3 := by
  obtain ⟨-, -, -, -, -, h0, h1, -⟩ := idx_facts t
  funext i
  unfold iblk
  rw [View.read_apply]
  show V m c main_arg3 _ = V m c main_arg3 _
  congr 1
  funext a
  apply Fin.ext
  match a with
  | ⟨0, _⟩ => show win0_3.index t (0 : Fin 2) * 3 + 1 * (i 0).val = (i 0).val; rw [h0]; omega
  | ⟨1, _⟩ => show win0_3.index t (1 : Fin 2) * 256 + 1 * (i 1).val = (i 1).val; rw [h1]; omega

theorem iblk4_eq (c : Dev nD) (t : Fin cfg0.N) : (iblk m c 4 t : Vec Ideal S256 .f32) = V m c main_arg4 := by
  obtain ⟨-, -, -, -, -, -, -, h0, -⟩ := idx_facts t
  funext i
  unfold iblk
  rw [View.read_apply]
  show V m c main_arg4 _ = V m c main_arg4 _
  congr 1
  funext a
  apply Fin.ext
  match a with
  | ⟨0, _⟩ => show win0_4.index t (0 : Fin 1) * 256 + 1 * (i 0).val = (i 0).val; rw [h0]; omega

theorem iblk5_eq (c : Dev nD) (t : Fin cfg0.N) : (iblk m c 5 t : Vec Ideal S256x256 .f32) = V m c main_arg5 := by
  obtain ⟨-, -, -, -, -, -, -, -, h0, h1, -⟩ := idx_facts t
  funext i
  unfold iblk
  rw [View.read_apply]
  show V m c main_arg5 _ = V m c main_arg5 _
  congr 1
  funext a
  apply Fin.ext
  match a with
  | ⟨0, _⟩ => show win0_5.index t (0 : Fin 2) * 256 + 1 * (i 0).val = (i 0).val; rw [h0]; omega
  | ⟨1, _⟩ => show win0_5.index t (1 : Fin 2) * 256 + 1 * (i 1).val = (i 1).val; rw [h1]; omega

theorem iblk6_eq (c : Dev nD) (t : Fin cfg0.N) : (iblk m c 6 t : Vec Ideal S256 .f32) = V m c main_arg6 := by
  obtain ⟨-, -, -, -, -, -, -, -, -, -, h0, -⟩ := idx_facts t
  funext i
  unfold iblk
  rw [View.read_apply]
  show V m c main_arg6 _ = V m c main_arg6 _
  congr 1
  funext a
  apply Fin.ext
  match a with
  | ⟨0, _⟩ => show win0_6.index t (0 : Fin 1) * 256 + 1 * (i 0).val = (i 0).val; rw [h0]; omega

theorem iblk7_eq (c : Dev nD) (t : Fin cfg0.N) : (iblk m c 7 t : Vec Ideal S256 .f32) = V m c main_arg7 := by
  obtain ⟨-, -, -, -, -, -, -, -, -, -, -, h0, -⟩ := idx_facts t
  funext i
  unfold iblk
  rw [View.read_apply]
  show V m c main_arg7 _ = V m c main_arg7 _
  congr 1
  funext a
  apply Fin.ext
  match a with
  | ⟨0, _⟩ => show win0_7.index t (0 : Fin 1) * 256 + 1 * (i 0).val = (i 0).val; rw [h0]; omega

theorem iblk8_eq (c : Dev nD) (t : Fin cfg0.N) : (iblk m c 8 t : Vec Ideal S256 .f32) = V m c main_arg8 := by
  obtain ⟨-, -, -, -, -, -, -, -, -, -, -, -, h0, -⟩ := idx_facts t
  funext i
  unfold iblk
  rw [View.read_apply]
  show V m c main_arg8 _ = V m c main_arg8 _
  congr 1
  funext a
  apply Fin.ext
  match a with
  | ⟨0, _⟩ => show win0_8.index t (0 : Fin 1) * 256 + 1 * (i 0).val = (i 0).val; rw [h0]; omega

/-! ## What a point leaves in its output block -/

/-- Two rows are normalised alike when their index words, coordinates and weight arrays agree. -/
theorem normRow_hidden_congr {z z' : BitVec 32} {xr xr' : Fin 3 → EReal} {emb emb' : FVec Ideal ⟨2, ![100, 256]⟩ .f32}
    {w1 w1' : FVec Ideal ⟨2, ![3, 256]⟩ .f32} {b1 b1' : FVec Ideal ⟨1, ![256]⟩ .f32}
    {w2 w2' : FVec Ideal ⟨2, ![256, 256]⟩ .f32} {b2 b2' g g' b b' : FVec Ideal ⟨1, ![256]⟩ .f32} (d : Fin 256)
    (hz : z = z') (hx : xr = xr') (he : emb = emb') (h1 : w1 = w1') (h2 : b1 = b1') (h3 : w2 = w2') (h4 : b2 = b2')
    (h5 : g = g') (h6 : b = b') :
    normRow (hidden z xr emb w1 b1 w2 b2) g b d = normRow (hidden z' xr' emb' w1' b1' w2' b2') g' b' d := by
  subst hz hx he h1 h2 h3 h4 h5 h6; rfl

/-- Entry `(p, d)` of what point `t` leaves in its output block is the specification at array row `rowAt t p`. -/
theorem block_at (c : Dev nD) (t : Fin cfg0.N) (p : Fin 4096) (d : Fin 256) :
    out0_9 (iblk m c 0 t) (iblk m c 1 t) (iblk m c 2 t) (iblk m c 3 t) (iblk m c 4 t) (iblk m c 5 t) (iblk m c 6 t)
        (iblk m c 7 t) (iblk m c 8 t) (ix2 p d)
      = spec m c (ix2 (rowAt t p) d) := by
  unfold out0_9
  refine (Cert.KernelIdeal.Value.canon9_eq _ _ _ _ _ _ _ _ _ (ix2 p d)).trans ?_
  refine (block_entry _ _ _ _ _ _ _ _ _ p d).trans ?_
  refine normRow_hidden_congr d ?_ ?_ ?_ ?_ ?_ ?_ ?_ ?_ ?_
  · rw [View.ld_unit_zero (S := S4096) hz1]; exact iblk0_apply m c t p
  · funext j; rw [View.ld_unit_zero (S := S4096x3) hz2]; exact iblk1_apply m c t p j
  · rw [View.ld_unit_zero (S := S100x256) hz2]; exact iblk2_eq m c t
  · rw [View.ld_unit_zero (S := S3x256) hz2]; exact iblk3_eq m c t
  · rw [View.ld_unit_zero (S := S256) hz1]; exact iblk4_eq m c t
  · rw [View.ld_unit_zero (S := S256x256) hz2]; exact iblk5_eq m c t
  · rw [View.ld_unit_zero (S := S256) hz1]; exact iblk6_eq m c t
  · rw [View.ld_unit_zero (S := S256) hz1]; exact iblk7_eq m c t
  · rw [View.ld_unit_zero (S := S256) hz1]; exact iblk8_eq m c t

/-- WHAT POINT `t` WRITES BACK is block `t` of the specification's array. -/
theorem flushed_eq (c : Dev nD) (t : Fin cfg0.N) :
    (dats m 0 c).flushed 9 t = ((cfg0.win 9).blk t).view.read (Elt Ideal) (spec m c) := by
  rw [Cert.KernelIdeal.Value.flushed9]
  obtain ⟨-, -, -, -, -, -, -, -, -, -, -, -, -, h0, h1⟩ := idx_facts t
  funext j
  have hj0 : (j 0).val < 4096 := (j 0).isLt
  have hj1 : (j 1).val < 256 := (j 1).isLt
  have hj : j = ix2 (⟨(j 0).val, hj0⟩ : Fin 4096) (⟨(j 1).val, hj1⟩ : Fin 256) :=
    funext fun a => by match a with | ⟨0, _⟩ => rfl | ⟨1, _⟩ => rfl
  show out0_9 (iblk m c 0 t) (iblk m c 1 t) (iblk m c 2 t) (iblk m c 3 t) (iblk m c 4 t) (iblk m c 5 t) (iblk m c 6 t)
      (iblk m c 7 t) (iblk m c 8 t) j = spec m c (((cfg0.win 9).blk t).view.emb j)
  refine (congrArg _ hj).trans ((block_at m c t ⟨(j 0).val, hj0⟩ ⟨(j 1).val, hj1⟩).trans (congrArg (spec m c) ?_))
  funext a
  apply Fin.ext
  match a with
  | ⟨0, _⟩ => show t.val * 4096 + (j 0).val = win0_9.index t (0 : Fin 2) * 4096 + 1 * (j 0).val; rw [h0]; omega
  | ⟨1, _⟩ => show (j 1).val = win0_9.index t (1 : Fin 2) * 256 + 1 * (j 1).val; rw [h1]; omega

/-- An index of the array is in point `t`'s block iff each coordinate is in the block's range on its axis. -/
theorem mem_blk (t : Fin cfg0.N) (i : S524288x256.Idx) :
    i ∈ ((cfg0.win 9).blk t).view.set ↔ ∀ a : Fin 2, win0_9.index t a * S4096x256.size a ≤ (i a).val
      ∧ (i a).val < win0_9.index t a * S4096x256.size a + S4096x256.size a := by
  show i ∈ ((View.whole main_v0).slice (win0_9.rect t)).set ↔ _
  rw [View.set_slice_whole, Rect.mem_set_unit]
  exact Iff.rfl

/-- THE ARRAY after the run is the specification's array: row `r` is in the block of point `r / 4096`. -/
theorem final (c : Dev nD) : (dats m 0 c).arrAt 9 cfg0.N = spec m c :=
  (dats m 0 c).arrAt_eq_of_cover 9 (spec m c) (fun t _ => flushed_eq m c t) fun i => by
    have hi0 : (i 0).val < 524288 := (i 0).isLt
    have hi1 : (i 1).val < 256 := (i 1).isLt
    have hN : cfg0.N = 128 := N_0
    refine ⟨⟨(i 0).val / 4096, by omega⟩, flush0_9 _, ?_⟩
    obtain ⟨-, -, -, -, -, -, -, -, -, -, -, -, -, h0, h1⟩ := idx_facts ⟨(i 0).val / 4096, by omega⟩
    rw [mem_blk]
    intro a
    match a with
    | ⟨0, _⟩ =>
      show win0_9.index ⟨(i 0).val / 4096, _⟩ (0 : Fin 2) * 4096 ≤ (i 0).val
        ∧ (i 0).val < win0_9.index ⟨(i 0).val / 4096, _⟩ (0 : Fin 2) * 4096 + 4096
      rw [h0]; show (i 0).val / 4096 * 4096 ≤ (i 0).val ∧ (i 0).val < (i 0).val / 4096 * 4096 + 4096; omega
    | ⟨1, _⟩ =>
      show win0_9.index ⟨(i 0).val / 4096, _⟩ (1 : Fin 2) * 256 ≤ (i 1).val
        ∧ (i 1).val < win0_9.index ⟨(i 0).val / 4096, _⟩ (1 : Fin 2) * 256 + 256
      rw [h1]; omega

/-! ## The run, read -/

/-- The kernel's run: the result array ends at the specification's array of the arguments, the arguments unchanged. -/
theorem run : θ_run defs (onTc (τ := τ) (main (F := Ideal))) ⟨m, fun _ => 0, ρ⟩ fun r => ∀ c : Dev nD,
      r.2.mem ((c : Thread nD τ).loc main_v0) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩)
    (Cert.KernelIdeal.Value.run_blocks m ρ)

end Cert.EmbedNorm.KernelArray

end
-- ==== Proof.LibRowGather.lean ====
/-
  A row gather read at an element.

  A gather of whole rows of an [R, C] operand at N start indices (result axis 1 the one offset axis,
  operand axis 0 collapsed and named by the start index map, index vectors along axis 1 of an [N, 1]
  array) reads, at (n, k), the operand at column k of the row idx[n, 0] read signed and clamped into
  [0, R − 1]: a negative word reads row 0, a word beyond the last row reads row R − 1.
-/
import Idealize.ShloMosaic.PureOps.ShapeOps
import Idealize.ShloMosaic.PureOps.Dims
import Idealize.ShloMosaic.Lib.ValueIdx
import Idealize.ShloMosaic.Lib.Pipeline.Value

namespace Cert.Lib.RowGather

open Idealize.ShloMosaic
open Idealize.ShloMosaic.ValueIdx

/-! ## The pieces of the operand index, for the [N, C] result layout

The result's axis 1 is its one offset axis, so its axis 0 is its one batch axis; the start indices are an [N, 1]
array whose axis 1 is the index vector, so a start index has one component and result row n reads it at (n, 0). -/

section Pieces
variable {R C N : ℕ} (d : GatherDims ⟨2, ![R, C]⟩ ⟨2, ![N, 1]⟩ ⟨2, ![N, C]⟩)

/-- A list that is a one-element list has that element at every position. -/
theorem getElem_eq_of_singleton {β : Type} {l : List β} {v : β} (e : l = [v]) (i : ℕ) (hi : i < l.length) :
    l[i] = v :=
  List.mem_singleton.mp (e ▸ List.getElem_mem hi)

/-- The position of the start indices read for result index j: row j 0, and 0 along the index vector (an axis of
    extent 1 has no other position). -/
theorem siIdx_row (h1 : d.offsetDims = [1]) (h6 : d.indexVectorDim = 1) (j : (⟨2, ![N, C]⟩ : Shape).Idx)
    (c : Fin d.startIndexMap.length) : d.siIdx j c = ix2 (n0 := N) (n1 := 1) (j 0) ⟨0, Nat.one_pos⟩ := by
  funext b
  refine Fin.ext ?_
  match b with
  | ⟨0, _⟩ =>
    unfold GatherDims.siIdx
    rw [dif_neg (by rw [h6]; exact Nat.zero_ne_one)]
    unfold GatherDims.siCoord
    have hbd : d.batchDims = [0] := by
      show Shape.kept _ d.offsetDims = _
      rw [h1]; rfl
    exact congrArg (fun a => (j a).val) (getElem_eq_of_singleton hbd _ _)
  | ⟨1, _⟩ =>
    show (d.siIdx j c ⟨1, _⟩).val = 0
    exact Nat.lt_one_iff.mp (d.siIdx j c ⟨1, _⟩).isLt

/-- The row axis of the operand is collapsed and is the one axis the start index map names: the slice starts at the
    start index read signed and clamped into [0, R − 1], and there is no offset on it. -/
theorem row_coord (h1 : d.offsetDims = [1]) (h2 : d.collapsedSliceDims = [0]) (h5 : d.startIndexMap = [0])
    (h6 : d.indexVectorDim = 1) (j : (⟨2, ![N, C]⟩ : Shape).Idx) (idx : IVec ⟨2, ![N, 1]⟩ 32) :
    d.start j idx 0 + d.offCoord j 0
      = min (idx (ix2 (n0 := N) (n1 := 1) (j 0) ⟨0, Nat.one_pos⟩)).toInt.toNat (R - 1) := by
  have hc : (0 : Fin 2) ∈ d.collapsedSliceDims := by rw [h2]; exact List.mem_singleton_self _
  have hm : (0 : Fin 2) ∈ d.startIndexMap := by rw [h5]; exact List.mem_singleton_self _
  rw [d.offCoord_eq_zero j 0 (fun hk => ((d.mem_sKept _).1 hk).1 hc), Nat.add_zero]
  unfold GatherDims.start
  rw [dif_pos hm, siIdx_row d h1 h6, d.slice_collapsed 0 hc]
  rfl

/-- The column axis of the operand is kept whole and the start index map does not name it: the slice starts at 0
    and the offset is the result's column. -/
theorem col_coord (h1 : d.offsetDims = [1]) (h2 : d.collapsedSliceDims = [0]) (h3 : d.operandBatchingDims = [])
    (h5 : d.startIndexMap = [0]) (j : (⟨2, ![N, C]⟩ : Shape).Idx) (idx : IVec ⟨2, ![N, 1]⟩ 32) :
    d.start j idx 1 + d.offCoord j 1 = (j 1).val := by
  have hne : ∀ {l : List (Fin 2)}, l = [0] → (1 : Fin 2) ∉ l := fun e h =>
    Nat.one_ne_zero (congrArg Fin.val (List.mem_singleton.mp (e ▸ h)))
  have hnm : (1 : Fin 2) ∉ d.startIndexMap := hne h5
  have hnc : (1 : Fin 2) ∉ d.collapsedSliceDims := hne h2
  have hnb : (1 : Fin 2) ∉ d.operandBatchingDims := by rw [h3]; exact List.not_mem_nil
  unfold GatherDims.start GatherDims.offCoord
  rw [dif_neg hnm, dif_pos ((d.mem_sKept 1).2 ⟨hnc, hnb⟩), Nat.zero_add]
  exact congrArg (fun a => (j a).val) (getElem_eq_of_singleton h1 _ _)

end Pieces

/-- THE ROW GATHER: result element (n, k) is the operand at row idx[n, 0] (signed, clamped) and column k. -/
theorem rowGather_apply {α : Type} {R C N : ℕ} (d : GatherDims ⟨2, ![R, C]⟩ ⟨2, ![N, 1]⟩ ⟨2, ![N, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![R, C]⟩ : Shape).Idx → α) (idx : IVec ⟨2, ![N, 1]⟩ 32) (n : Fin N) (k : Fin C) (hR : 0 < R) :
    Host.gather d x idx (ix2 n k)
      = x (ix2 (n0 := R) (n1 := C) ⟨min (idx (ix2 (n0 := N) (n1 := 1) n ⟨0, Nat.one_pos⟩)).toInt.toNat (R - 1), by omega⟩ k) := by
  unfold Host.gather
  congr 1
  funext a
  refine Fin.ext ?_
  show d.start (ix2 n k) idx a + d.batchCoord (ix2 n k) a + d.offCoord (ix2 n k) a = _
  rw [d.batchCoord_eq_zero _ a (by rw [h3]; exact List.not_mem_nil), Nat.add_zero]
  match a with
  | ⟨0, _⟩ => exact row_coord d h1 h2 h5 h6 (ix2 n k) idx
  | ⟨1, _⟩ => exact col_coord d h1 h2 h3 h5 (ix2 n k) idx

end Cert.Lib.RowGather
-- ==== Proof.RefValue.lean ====
/-
  The reference's result, read entry by entry, is the specification.

  Every operation of the reference is read at an explicit index (r, d): the broadcasts read their operand at the
  same row or column, the two contractions are finite sums, the row gather reads the table at the row the index
  word names, and the two row sums of the normalisation start from the zero word. Put together, entry (r, d) of the
  reference is the specification's entry.
-/
import proofs.«417643_j84361747628495_2_alg».proof.Proof.Gen.ReferenceIdeal.Read
import proofs.«417643_j84361747628495_2_alg».proof.Proof.RowSpec
import proofs.«417643_j84361747628495_2_alg».proof.Proof.LibRowGather
import Idealize.ShloMosaic.Lib.ValueIdx
import Idealize.ShloMosaic.Lib.Affine
import Idealize.ShloMosaic.PureOps.Ideal
import Idealize.ShloMosaic.PureOps.Ideal.Laws

noncomputable section

open scoped BigOperators

namespace Cert.EmbedNorm

open Idealize.ShloMosaic Idealize.ShloMosaic.ValueIdx Cert.ReferenceIdeal Cert.ReferenceIdeal.Read

/-! ## Where the broadcasts and contractions read -/

/-- The left operand of the first contraction, for result (r, k) and contraction index j, is read at (r, j). -/
theorem lidx7_ix2 (r : Fin 524288) (k : Fin 256) (j : Fin 3) : lidx_main_v7 (ix2 r k) j = ix2 r j := by
  funext a; match a with | ⟨0, _⟩ => rfl | ⟨1, _⟩ => rfl

/-- The right operand of the first contraction, for result (r, k) and contraction index j, is read at (j, k). -/
theorem ridx7_ix2 (r : Fin 524288) (k : Fin 256) (j : Fin 3) : ridx_main_v7 (ix2 r k) j = ix2 j k := by
  funext a; match a with | ⟨0, _⟩ => rfl | ⟨1, _⟩ => rfl

/-- A bias broadcast along the rows is read, for result (r, k), at k. -/
theorem idx8_idx9_ix2 (r : Fin 524288) (k : Fin 256) : idx_main_v8 (idx_main_v9 (ix2 r k)) = ix1 k := by
  funext a; match a with | ⟨0, _⟩ => rfl

/-! ## The first layer -/

/-- The first layer before the activation, at (r, k). -/
theorem v10_at (x1 : FVec Ideal S524288x3 .f32) (x3 : FVec Ideal S3x256 .f32) (x4 : FVec Ideal S256 .f32)
    (r : Fin 524288) (k : Fin 256) :
    val_main_v10 (F := Ideal) x1 x3 x4 (ix2 r k) = preact (fun j => x1 (ix2 r j)) x3 x4 k := by
  rw [val_main_v10_apply, val_main_v7_apply, val_main_v9_apply, val_main_v8_apply, idx8_idx9_ix2]
  simp only [lidx7_ix2, ridx7_ix2]
  rfl

/-- The word 0x3F800000 denotes 1. -/
theorem one_word : Ideal.ofBits .f32 0x3F800000#32 = 1 := by
  simp [Ideal.ofBits, Ideal.ieee, -EReal.coe_mul]; norm_num

/-- The activation as the reference spells it, a · (1 / (1 + e^(−a))), is a · logistic a. -/
theorem v11_at (x1 : FVec Ideal S524288x3 .f32) (x3 : FVec Ideal S3x256 .f32) (x4 : FVec Ideal S256 .f32)
    (r : Fin 524288) (k : Fin 256) :
    val_main_v11 (F := Ideal) x1 x3 x4 (ix2 r k)
      = preact (fun j => x1 (ix2 r j)) x3 x4 k * Ideal.logistic (preact (fun j => x1 (ix2 r j)) x3 x4 k) := by
  rw [val_main_v11_apply, val_main_call0_v5_apply, val_main_call0_v4_apply, val_main_call0_cst_0_apply,
    val_main_call0_v3_apply, val_main_call0_v2_apply, val_main_call0_cst_apply, val_main_call0_v1_apply,
    val_main_call0_v0_apply, v10_at]
  show _ * Ideal.div (Ideal.ofBits .f32 0x3F800000#32) (Ideal.ofBits .f32 0x3F800000#32 + Ideal.exp (-_)) = _
  rw [one_word]
  rfl

/-! ## The table row -/

/-- A nonnegative index word passes the sign test unchanged: the reference adds 100 only to negative words. -/
theorem v4_at (x0 : IVec S524288 32) (hz : ∀ i, 0 ≤ (x0 i).toInt) (i : S524288.Idx) :
    val_main_v4 (F := Ideal) x0 i = x0 i := by
  rw [val_main_v4_apply, val_main_v1_apply, val_main_v0_apply, val_main_c_apply]
  have h : ¬ IntOp.cmpi .slt (x0 i) 0#32 = 1#1 := by
    rw [IntOp.cmpi_slt, show (0#32 : BitVec 32).toInt = 0 from by decide]
    exact not_lt.mpr (hz i)
  exact if_neg h

/-- The start index of result row r is read at r. -/
theorem idx5_ix2 (r : Fin 524288) : idx_main_v5 (ix2 (n0 := 524288) (n1 := 1) r ⟨0, Nat.one_pos⟩) = ix1 r := by
  funext a; match a with | ⟨0, _⟩ => rfl

/-- The gathered table entry at (r, d): the table at the row the index word of r names, column d. -/
theorem v6_at (x0 : IVec S524288 32) (x2 : FVec Ideal S100x256 .f32) (hz : ∀ i, 0 ≤ (x0 i).toInt)
    (r : Fin 524288) (d : Fin 256) :
    val_main_v6 (F := Ideal) x0 x2 (ix2 r d) = x2 (ix2 (tableRow (x0 (ix1 r))) d) := by
  unfold val_main_v6
  rw [Cert.Lib.RowGather.rowGather_apply gather_S100x256_S524288x1_S524288x256_1_0_n_n_0_1_1256 rfl rfl rfl rfl rfl rfl rfl
    x2 (val_main_v5 (F := Ideal) x0) r d (by decide)]
  have hw : val_main_v5 (F := Ideal) x0 (ix2 r ⟨0, Nat.one_pos⟩) = x0 (ix1 r) := by
    rw [val_main_v5_apply, idx5_ix2, v4_at x0 hz]
  refine congrArg (fun t => x2 (ix2 t d)) (Fin.ext ?_)
  show min (val_main_v5 (F := Ideal) x0 (ix2 r ⟨0, Nat.one_pos⟩)).toInt.toNat (100 - 1) = min (x0 (ix1 r)).toInt.toNat 99
  rw [hw]

/-! ## The row before normalisation -/

/-- The left operand of the second contraction, for result (r, d) and contraction index k, is read at (r, k). -/
theorem lidx12_ix2 (r : Fin 524288) (d k : Fin 256) : lidx_main_v12 (ix2 r d) k = ix2 r k := by
  funext a; match a with | ⟨0, _⟩ => rfl | ⟨1, _⟩ => rfl

/-- The right operand of the second contraction, for result (r, d) and contraction index k, is read at (k, d). -/
theorem ridx12_ix2 (r : Fin 524288) (d k : Fin 256) : ridx_main_v12 (ix2 r d) k = ix2 k d := by
  funext a; match a with | ⟨0, _⟩ => rfl | ⟨1, _⟩ => rfl

theorem idx13_idx14_ix2 (r : Fin 524288) (d : Fin 256) : idx_main_v13 (idx_main_v14 (ix2 r d)) = ix1 d := by
  funext a; match a with | ⟨0, _⟩ => rfl

/-- The row before normalisation at (r, d): the gathered table entry plus the position network's output. -/
theorem v16_at (x0 : IVec S524288 32) (x1 : FVec Ideal S524288x3 .f32) (x2 : FVec Ideal S100x256 .f32)
    (x3 : FVec Ideal S3x256 .f32) (x4 : FVec Ideal S256 .f32) (x5 : FVec Ideal S256x256 .f32)
    (x6 : FVec Ideal S256 .f32) (hz : ∀ i, 0 ≤ (x0 i).toInt) (r : Fin 524288) (d : Fin 256) :
    val_main_v16 (F := Ideal) x0 x1 x2 x3 x4 x5 x6 (ix2 r d)
      = hidden (x0 (ix1 r)) (fun j => x1 (ix2 r j)) x2 x3 x4 x5 x6 d := by
  rw [val_main_v16_apply, val_main_v15_apply, val_main_v12_apply, val_main_v14_apply, val_main_v13_apply,
    idx13_idx14_ix2, v6_at x0 x2 hz]
  simp only [lidx12_ix2, ridx12_ix2, v11_at]
  rfl

/-! ## The normalisation -/

section Tail
variable (x0 : IVec S524288 32) (x1 : FVec Ideal S524288x3 .f32) (x2 : FVec Ideal S100x256 .f32)
  (x3 : FVec Ideal S3x256 .f32) (x4 : FVec Ideal S256 .f32) (x5 : FVec Ideal S256x256 .f32)
  (x6 x7 x8 : FVec Ideal S256 .f32)

/-- A row sum for row r, summand k, reads its operand at (r, k). -/
theorem idx17_ix1 (r : Fin 524288) (k : Fin 256) : idx_main_v17 (ix1 r) k = ix2 r k := by
  funext a; match a with | ⟨0, _⟩ => rfl | ⟨1, _⟩ => rfl

theorem idx24_ix1 (r : Fin 524288) (k : Fin 256) : idx_main_v24 (ix1 r) k = ix2 r k := by
  funext a; match a with | ⟨0, _⟩ => rfl | ⟨1, _⟩ => rfl

/-- A per-row value kept as a column of width one is read, at (r, 0), at r. -/
theorem idx18_ix2 (r : Fin 524288) : idx_main_v18 (ix2 (n0 := 524288) (n1 := 1) r ⟨0, Nat.one_pos⟩) = ix1 r := by
  funext a; match a with | ⟨0, _⟩ => rfl

theorem idx25_ix2 (r : Fin 524288) : idx_main_v25 (ix2 (n0 := 524288) (n1 := 1) r ⟨0, Nat.one_pos⟩) = ix1 r := by
  funext a; match a with | ⟨0, _⟩ => rfl

/-- A per-row column broadcast along the row is read, at (r, d), at (r, 0). -/
theorem idx21_ix2 (r : Fin 524288) (d : Fin 256) : idx_main_v21 (ix2 r d) = ix2 r ⟨0, Nat.one_pos⟩ := by
  funext a; match a with | ⟨0, _⟩ => rfl | ⟨1, _⟩ => rfl

theorem idx28_ix2 (r : Fin 524288) (d : Fin 256) : idx_main_v28 (ix2 r d) = ix2 r ⟨0, Nat.one_pos⟩ := by
  funext a; match a with | ⟨0, _⟩ => rfl | ⟨1, _⟩ => rfl

theorem idx33_ix2 (r : Fin 524288) (d : Fin 256) : idx_main_v33 (ix2 r d) = ix2 r ⟨0, Nat.one_pos⟩ := by
  funext a; match a with | ⟨0, _⟩ => rfl | ⟨1, _⟩ => rfl

theorem idx35_idx36_ix2 (r : Fin 524288) (d : Fin 256) : idx_main_v35 (idx_main_v36 (ix2 r d)) = ix1 d := by
  funext a; match a with | ⟨0, _⟩ => rfl

theorem idx38_idx39_ix2 (r : Fin 524288) (d : Fin 256) : idx_main_v38 (idx_main_v39 (ix2 r d)) = ix1 d := by
  funext a; match a with | ⟨0, _⟩ => rfl

/-- The first row sum: it starts from the zero word, so it is the plain sum of the row. -/
theorem v17_at (r : Fin 524288) :
    val_main_v17 (F := Ideal) x0 x1 x2 x3 x4 x5 x6 (ix1 r)
      = ∑ k : Fin 256, val_main_v16 (F := Ideal) x0 x1 x2 x3 x4 x5 x6 (ix2 r k) := by
  rw [val_main_v17_apply, val_main_cst_apply, Ideal.ofBits_def, Ideal.ofBits_zero_f32, zero_add]
  simp only [idx17_ix1]

/-- The row mean, kept at (r, 0). -/
theorem v20_at (r : Fin 524288) :
    val_main_v20 (F := Ideal) x0 x1 x2 x3 x4 x5 x6 (ix2 r ⟨0, Nat.one_pos⟩)
      = rowMean (fun d => val_main_v16 (F := Ideal) x0 x1 x2 x3 x4 x5 x6 (ix2 r d)) := by
  rw [val_main_v20_apply, val_main_v18_apply, idx18_ix2, v17_at, val_main_v19_apply, val_main_cst_1_apply]
  rfl

/-- The centred row at (r, d). -/
theorem v22_at (r : Fin 524288) (d : Fin 256) :
    val_main_v22 (F := Ideal) x0 x1 x2 x3 x4 x5 x6 (ix2 r d)
      = val_main_v16 (F := Ideal) x0 x1 x2 x3 x4 x5 x6 (ix2 r d)
        - rowMean (fun e => val_main_v16 (F := Ideal) x0 x1 x2 x3 x4 x5 x6 (ix2 r e)) := by
  rw [val_main_v22_apply, val_main_v21_apply, idx21_ix2, v20_at]
  rfl

/-- The row variance, kept at (r, 0): the mean of the squared centred row. -/
theorem v27_at (r : Fin 524288) :
    val_main_v27 (F := Ideal) x0 x1 x2 x3 x4 x5 x6 (ix2 r ⟨0, Nat.one_pos⟩)
      = rowMean (fun e =>
          (val_main_v16 (F := Ideal) x0 x1 x2 x3 x4 x5 x6 (ix2 r e)
              - rowMean (fun e' => val_main_v16 (F := Ideal) x0 x1 x2 x3 x4 x5 x6 (ix2 r e')))
            * (val_main_v16 (F := Ideal) x0 x1 x2 x3 x4 x5 x6 (ix2 r e)
              - rowMean (fun e' => val_main_v16 (F := Ideal) x0 x1 x2 x3 x4 x5 x6 (ix2 r e')))) := by
  rw [val_main_v27_apply, val_main_v25_apply, idx25_ix2, val_main_v24_apply, val_main_cst_2_apply, Ideal.ofBits_def,
    Ideal.ofBits_zero_f32, zero_add, val_main_v26_apply, val_main_cst_3_apply]
  simp only [idx24_ix1, val_main_v23_apply, v22_at]
  rfl

/-- The reference's result at (r, d): the row before normalisation, normalised. -/
theorem v40_at (r : Fin 524288) (d : Fin 256) :
    val_main_v40 (F := Ideal) x0 x1 x2 x3 x4 x5 x6 x7 x8 (ix2 r d)
      = normRow (fun e => val_main_v16 (F := Ideal) x0 x1 x2 x3 x4 x5 x6 (ix2 r e)) x7 x8 d := by
  rw [val_main_v40_apply, val_main_v37_apply, val_main_v34_apply, val_main_v29_apply, val_main_v28_apply, idx28_ix2,
    v20_at, val_main_v33_apply, idx33_ix2, val_main_v32_apply, val_main_v31_apply, v27_at, val_main_v30_apply,
    val_main_cst_4_apply, val_main_v36_apply, val_main_v35_apply, idx35_idx36_ix2, val_main_v39_apply,
    val_main_v38_apply, idx38_idx39_ix2]
  rfl

end Tail

/-- Under nonnegative index words the reference's result array is the specification's. -/
theorem ref_result (x0 : IVec S524288 32) (x1 : FVec Ideal S524288x3 .f32) (x2 : FVec Ideal S100x256 .f32)
    (x3 : FVec Ideal S3x256 .f32) (x4 : FVec Ideal S256 .f32) (x5 : FVec Ideal S256x256 .f32)
    (x6 x7 x8 : FVec Ideal S256 .f32) (hz : ∀ i, 0 ≤ (x0 i).toInt) :
    val_main_v40 (F := Ideal) x0 x1 x2 x3 x4 x5 x6 x7 x8 = result x0 x1 x2 x3 x4 x5 x6 x7 x8 := by
  funext i
  obtain ⟨r, d, rfl⟩ : ∃ (r : Fin 524288) (d : Fin 256), i = ix2 r d := ⟨i 0, i 1, eq_ix2 i⟩
  rw [result_ix2, v40_at]
  have hrow : (fun e => val_main_v16 (F := Ideal) x0 x1 x2 x3 x4 x5 x6 (ix2 r e))
      = hidden (x0 (ix1 r)) (fun j => x1 (ix2 r j)) x2 x3 x4 x5 x6 :=
    funext fun e => v16_at x0 x1 x2 x3 x4 x5 x6 hz r e
  rw [hrow]
  rfl

end Cert.EmbedNorm

end
-- ==== Proof.lean ====
/- The proof of `Cert.Claim` (proofs.«417643_j84361747628495_2_alg».proof.Defs): frame_Kernel ∧ frame_KernelIdeal ∧
   frame_ReferenceIdeal ∧ preserves_Kernel_KernelIdeal ∧ algebraic_KernelIdeal_ReferenceIdeal.

   The kernel embeds a type index, adds a small position network of the three coordinates (linear, x · logistic x,
   linear) and normalises each row of 256 values (centre, scale by the reciprocal root of the variance plus ε, affine
   map), 4096 rows per grid point. It selects the table row by a product with a 0/1 selection matrix built from the
   index word clipped into [0, 99]; the reference gathers the row at the index word with negative words wrapped by 100
   and then clamped. Both read the same row exactly when the word is nonnegative, which is the precondition's last
   conjunct (`Proof/IndexDomain.lean`). On the exact reals the selection product IS the selected row (every other term
   is 0 · something = 0: no finiteness is used), the narrowings to a 16-bit format are the identity, and every other
   operation is the same on both sides, so both result arrays are ONE function of the arguments, row by row
   (`Proof/RowSpec.lean`): the kernel's by its blocks (`Proof/KernelOps.lean`, `Proof/KernelRow.lean`,
   `Proof/KernelArray.lean`), the reference's by its run read entry by entry (`Proof/RefValue.lean`, over the row
   gather of `Proof/LibRowGather.lean`). The three frames are the generated ones; `preserves` has no conjunct. -/
import proofs.«417643_j84361747628495_2_alg».proof.Defs
import proofs.«417643_j84361747628495_2_alg».proof.Proof.Gen.Kernel
import proofs.«417643_j84361747628495_2_alg».proof.Proof.Gen.Kernel.Skeleton
import proofs.«417643_j84361747628495_2_alg».proof.Proof.Gen.Kernel.Launch
import proofs.«417643_j84361747628495_2_alg».proof.Proof.Gen.Kernel.Points
import proofs.«417643_j84361747628495_2_alg».proof.Proof.Gen.Kernel.Frame
import proofs.«417643_j84361747628495_2_alg».proof.Proof.Gen.KernelIdeal
import proofs.«417643_j84361747628495_2_alg».proof.Proof.Gen.KernelIdeal.Skeleton
import proofs.«417643_j84361747628495_2_alg».proof.Proof.Gen.KernelIdeal.Launch
import proofs.«417643_j84361747628495_2_alg».proof.Proof.Gen.KernelIdeal.Points
import proofs.«417643_j84361747628495_2_alg».proof.Proof.Gen.KernelIdeal.Frame
import proofs.«417643_j84361747628495_2_alg».proof.Proof.Gen.ReferenceIdeal
import proofs.«417643_j84361747628495_2_alg».proof.Proof.Gen.Pre_finite_inputs
import proofs.«417643_j84361747628495_2_alg».proof.Proof.Gen.KernelIdeal.Value
import proofs.«417643_j84361747628495_2_alg».proof.Proof.Gen.ReferenceIdeal.Run
import proofs.«417643_j84361747628495_2_alg».proof.Proof.Gen.ReferenceIdeal.Read
import proofs.«417643_j84361747628495_2_alg».proof.Proof.IndexDomain
import proofs.«417643_j84361747628495_2_alg».proof.Proof.KernelArray
import proofs.«417643_j84361747628495_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is no conjunct. -/
theorem preserves : Cert.preserves_Kernel_KernelIdeal := trivial

/-- Both programs end with the specification's array of the arguments: the kernel block by block, the reference entry
    by entry, its gather reading the clipped row because the precondition makes every index word nonnegative. -/
theorem algebraic : Cert.algebraic_KernelIdeal_ReferenceIdeal := by
  intro m ρ m' ρ' hpre hagree
  refine ⟨fun c => Cert.EmbedNorm.KernelArray.spec m c, Cert.EmbedNorm.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v40_eq, a0, a1, a2, a3, a4, a5, a6, a7, a8]
  exact Cert.EmbedNorm.ref_result _ _ _ _ _ _ _ _ _
    (fun i => Cert.EmbedNorm.index_nonneg _ _ _ _ _ _ _ _ _ (hpre c) i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
